-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v8_0)) (v1 : (c : Dev Cert.KernelIdeal.nD) → Buf (Elt Ideal) ((c.tc : Thread Cert.KernelIdeal.nD Cert.KernelIdeal.τ).loc Cert.KernelIdeal.main_v8_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8_0) = v0 c
          ∧ r.2.mem ((c.tc : Thread Cert.KernelIdeal.nD Cert.KernelIdeal.τ).loc Cert.KernelIdeal.main_v8_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v40) = v0 c
          ∧ r.2.mem ((c.tc : Thread Cert.ReferenceIdeal.nD Cert.ReferenceIdeal.τ).loc Cert.ReferenceIdeal.main_v38) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x1024 : Shape := ⟨2, ![8192, 1024]⟩
abbrev S4x1024x1024 : Shape := ⟨3, ![4, 1024, 1024]⟩
abbrev S4x1024 : Shape := ⟨2, ![4, 1024]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S4x1024x1024 : S_.BroadcastsInDim S4x1024x1024 (![] : Fin 0 → Fin S4x1024x1024.rank)
  reducesTo_S4x1024x1024_S_d0_1_2 : S4x1024x1024.ReducesTo [0, 1, 2] S_
  bcast_S_S4x1024 : S_.BroadcastsInDim S4x1024 (![] : Fin 0 → Fin S4x1024.rank)
  reducesTo_S4x1024_S_d0_1 : S4x1024.ReducesTo [0, 1] S_

variable [Facts]

def fn_part1 {F : FTy → Type} [FloatOps F] (main_arg4 : FVec F S4x1024 .f32) (main_arg5 : FVec F S4x1024x1024 .f32) (main_arg6 : FVec F S4x1024 .f32) (main_v13 : IVec S_ 1) (main_v16 : IVec S4x1024x1024 1) : IVec S_ 1 :=
  let main_c_5 : IVec S_ 1 := constantI S_ 1 1#1
  let main_v17 : IVec S_ 1 := (fun x v => Host.reduce IntOp.andi x v reducesTo_S4x1024x1024_S_d0_1_2 h_S_) main_v16 main_c_5
  let main_v18 : IVec S_ 1 := andi main_v13 main_v17
  let main_v19 : FVec F S4x1024 .f32 := Host.absf main_arg4
  let main_cst_6 : FVec F S_ .f32 := constant S_ .f32 0x7F800000#32
  let main_v20 : FVec F S4x1024 .f32 := broadcastInDim S4x1024 ![] bcast_S_S4x1024 main_cst_6
  let main_v21 : IVec S4x1024 1 := cmpf .olt main_v19 main_v20
  let main_c_7 : IVec S_ 1 := constantI S_ 1 1#1
  let main_v22 : IVec S_ 1 := (fun x v => Host.reduce IntOp.andi x v reducesTo_S4x1024_S_d0_1 h_S_) main_v21 main_c_7
  let main_v23 : IVec S_ 1 := andi main_v18 main_v22
  let main_v24 : FVec F S4x1024x1024 .f32 := Host.absf main_arg5
  let main_cst_8 : FVec F S_ .f32 := constant S_ .f32 0x7F800000#32
  let main_v25 : FVec F S4x1024x1024 .f32 := broadcastInDim S4x1024x1024 ![] bcast_S_S4x1024x1024 main_cst_8
  let main_v26 : IVec S4x1024x1024 1 := cmpf .olt main_v24 main_v25
  let main_c_9 : IVec S_ 1 := constantI S_ 1 1#1
  let main_v27 : IVec S_ 1 := (fun x v => Host.reduce IntOp.andi x v reducesTo_S4x1024x1024_S_d0_1_2 h_S_) main_v26 main_c_9
  let main_v28 : IVec S_ 1 := andi main_v23 main_v27
  let main_v29 : FVec F S4x1024 .f32 := Host.absf main_arg6
  let main_cst_10 : FVec F S_ .f32 := constant S_ .f32 0x7F800000#32
  let main_v30 : FVec F S4x1024 .f32 := broadcastInDim S4x1024 ![] bcast_S_S4x1024 main_cst_10
  let main_v31 : IVec S4x1024 1 := cmpf .olt main_v29 main_v30
  let main_c_11 : IVec S_ 1 := constantI S_ 1 1#1
  let main_v32 : IVec S_ 1 := (fun x v => Host.reduce IntOp.andi x v reducesTo_S4x1024_S_d0_1 h_S_) main_v31 main_c_11
  let main_v33 : IVec S_ 1 := andi main_v28 main_v32
  main_v33

def fn {F : FTy → Type} [FloatOps F] (main_arg0 : FVec F S8192x1024 .f32) (main_arg1 : FVec F S8192x1024 .f32) (main_arg2 : FVec F S8192x1024 .f32) (main_arg3 : FVec F S4x1024x1024 .f32) (main_arg4 : FVec F S4x1024 .f32) (main_arg5 : FVec F S4x1024x1024 .f32) (main_arg6 : FVec F S4x1024 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S8192x1024 .f32 := Host.absf main_arg1
  let main_cst_0 : FVec F S_ .f32 := constant S_ .f32 0x7F800000#32
  let main_v5 : FVec F S8192x1024 .f32 := broadcastInDim S8192x1024 ![] bcast_S_S8192x1024 main_cst_0
  let main_v6 : IVec S8192x1024 1 := cmpf .olt main_v4 main_v5
  let main_c_1 : IVec S_ 1 := constantI S_ 1 1#1
  let main_v7 : IVec S_ 1 := (fun x v => Host.reduce IntOp.andi x v reducesTo_S8192x1024_S_d0_1 h_S_) main_v6 main_c_1
  let main_v8 : IVec S_ 1 := andi main_v3 main_v7
  let main_v9 : FVec F S8192x1024 .f32 := Host.absf main_arg2
  let main_cst_2 : FVec F S_ .f32 := constant S_ .f32 0x7F800000#32
  let main_v10 : FVec F S8192x1024 .f32 := broadcastInDim S8192x1024 ![] bcast_S_S8192x1024 main_cst_2
  let main_v11 : IVec S8192x1024 1 := cmpf .olt main_v9 main_v10
  let main_c_3 : IVec S_ 1 := constantI S_ 1 1#1
  let main_v12 : IVec S_ 1 := (fun x v => Host.reduce IntOp.andi x v reducesTo_S8192x1024_S_d0_1 h_S_) main_v11 main_c_3
  let main_v13 : IVec S_ 1 := andi main_v8 main_v12
  let main_v14 : FVec F S4x1024x1024 .f32 := Host.absf main_arg3
  let main_cst_4 : FVec F S_ .f32 := constant S_ .f32 0x7F800000#32
  let main_v15 : FVec F S4x1024x1024 .f32 := broadcastInDim S4x1024x1024 ![] bcast_S_S4x1024x1024 main_cst_4
  let main_v16 : IVec S4x1024x1024 1 := cmpf .olt main_v14 main_v15
  fn_part1 (F := F) main_arg4 main_arg5 main_arg6 main_v13 main_v16
-- ==== Kernel.lean ====
abbrev S8192x1024 : Shape := ⟨2, ![8192, 1024]⟩
abbrev S4x1024x1024 : Shape := ⟨3, ![4, 1024, 1024]⟩
abbrev S4x1024 : Shape := ⟨2, ![4, 1024]⟩
abbrev S4x1x1024 : Shape := ⟨3, ![4, 1, 1024]⟩
abbrev S256x1024 : Shape := ⟨2, ![256, 1024]⟩
abbrev S1x1024x1024 : Shape := ⟨3, ![1, 1024, 1024]⟩
abbrev S1024x1024 : Shape := ⟨2, ![1024, 1024]⟩
abbrev S1x1x1024 : Shape := ⟨3, ![1, 1, 1024]⟩
abbrev S1x1024 : Shape := ⟨2, ![1, 1024]⟩

abbrev nBuf : Space → Nat
  | .hbm => 17
  | .vmem => 13
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S4x1024x1024, .f32⟩
  | .hbm, ⟨4, _⟩ => ⟨S4x1024, .f32⟩
  | .hbm, ⟨5, _⟩ => ⟨S4x1024x1024, .f32⟩
  | .hbm, ⟨6, _⟩ => ⟨S4x1024, .f32⟩
  | .hbm, ⟨7, _⟩ => ⟨S4x1024x1024, .f32⟩
  | .hbm, ⟨8, _⟩ => ⟨S4x1024x1024, .bf16⟩
  | .hbm, ⟨9, _⟩ => ⟨S4x1024x1024, .f32⟩
  | .hbm, ⟨10, _⟩ => ⟨S4x1024x1024, .bf16⟩
  | .hbm, ⟨11, _⟩ => ⟨S4x1024, .f32⟩
  | .hbm, ⟨12, _⟩ => ⟨S4x1x1024, .f32⟩
  | .hbm, ⟨13, _⟩ => ⟨S8192x1024, .bf16⟩
  | .hbm, ⟨14, _⟩ => ⟨S8192x1024, .bf16⟩
  | .hbm, ⟨15, _⟩ => ⟨S8192x1024, .f32⟩
  | .hbm, ⟨16, _⟩ => ⟨S8192x1024, .f32⟩
  | .local _ .vmem, ⟨0, _⟩ => ⟨S256x1024, .bf16⟩
  | .local _ .vmem, ⟨1, _⟩ => ⟨S256x1024, .bf16⟩
  | .local _ .vmem, ⟨2, _⟩ => ⟨S256x1024, .bf16⟩
  | .local _ .vmem, ⟨3, _⟩ => ⟨S256x1024, .bf16⟩
  | .local _ .vmem, ⟨4, _⟩ => ⟨S256x1024, .f32⟩
  | .local _ .vmem, ⟨5, _⟩ => ⟨S256x1024, .f32⟩
  | .local _ .vmem, ⟨6, _⟩ => ⟨S4x1024x1024, .bf16⟩
  | .local _ .vmem, ⟨7, _⟩ => ⟨S4x1024x1024, .bf16⟩
  | .local _ .vmem, ⟨8, _⟩ => ⟨S4x1x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8_0 : Ref sig .tc := ⟨.hbm, 15, rfl⟩
abbrev main_v8_1 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S4x1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S4x1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S4x1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  transposes_S4x1024x1024_S4x1024x1024_0_2_1 : S4x1024x1024.Transposes [0, 2, 1] S4x1024x1024
  bitsLt_bf16_f32 : FTy.bits .bf16 < FTy.bits .f32
  shapeCasts_S4x1024_S4x1x1024 : S4x1024.ShapeCasts S4x1x1024
  inb_S256x1024_S256x1024_0_0 : ∀ a, (![0, 0] : Fin 2 → Nat) a + S256x1024.size a ≤ S256x1024.size a
  h_S256x1024 : 0 < S256x1024.numel
  shapeCasts_S256x1024_S256x1024 : S256x1024.ShapeCasts S256x1024
  inb_S4x1024x1024_S1x1024x1024_0_0_0 : ∀ a, (![0, 0, 0] : Fin 3 → Nat) a + S1x1024x1024.size a ≤ S4x1024x1024.size a
  h_S1x1024x1024 : 0 < S1x1024x1024.numel
  shapeCasts_S1x1024x1024_S1024x1024 : S1x1024x1024.ShapeCasts S1024x1024
  inb_S4x1x1024_S1x1x1024_0_0_0 : ∀ a, (![0, 0, 0] : Fin 3 → Nat) a + S1x1x1024.size a ≤ S4x1x1024.size a
  h_S1x1x1024 : 0 < S1x1x1024.numel
  shapeCasts_S1x1x1024_S1x1024 : S1x1x1024.ShapeCasts S1x1024
  broadcasts_S1x1024_S256x1024 : S1x1024.Broadcasts S256x1024
  inb_S4x1024x1024_S1x1024x1024_1_0_0 : ∀ a, (![1, 0, 0] : Fin 3 → Nat) a + S1x1024x1024.size a ≤ S4x1024x1024.size a
  inb_S4x1x1024_S1x1x1024_1_0_0 : ∀ a, (![1, 0, 0] : Fin 3 → Nat) a + S1x1x1024.size a ≤ S4x1x1024.size a
  inb_S4x1024x1024_S1x1024x1024_2_0_0 : ∀ a, (![2, 0, 0] : Fin 3 → Nat) a + S1x1024x1024.size a ≤ S4x1024x1024.size a
  inb_S4x1x1024_S1x1x1024_2_0_0 : ∀ a, (![2, 0, 0] : Fin 3 → Nat) a + S1x1x1024.size a ≤ S4x1x1024.size a
  inb_S4x1024x1024_S1x1024x1024_3_0_0 : ∀ a, (![3, 0, 0] : Fin 3 → Nat) a + S1x1024x1024.size a ≤ S4x1024x1024.size a
  inb_S4x1x1024_S1x1x1024_3_0_0 : ∀ a, (![3, 0, 0] : Fin 3 → Nat) a + S1x1x1024.size a ≤ S4x1x1024.size a
  dot_S256x1024_S1024x1024_S256x1024_1_0_0_1_n_n_wf : DotDims.WF S256x1024 S1024x1024 S256x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x1024.size a ≤ S8192x1024.size a
  hwx0_0 : ∀ i : grid0.Coords, EltTy.bits .bf16 = 32 ∨ (Rect.block (s := S8192x1024) S256x1024.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x1024.size a ≤ S8192x1024.size a
  hwx0_1 : ∀ i : grid0.Coords, EltTy.bits .bf16 = 32 ∨ (Rect.block (s := S8192x1024) S256x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x1024.size a ≤ S8192x1024.size a
  hwx0_2 : ∀ i : grid0.Coords, EltTy.bits .f32 = 32 ∨ (Rect.block (s := S8192x1024) S256x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S4x1024x1024.size a ≤ S4x1024x1024.size a
  hwx0_3 : ∀ i : grid0.Coords, EltTy.bits .bf16 = 32 ∨ (Rect.block (s := S4x1024x1024) S4x1024x1024.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S4x1024x1024.size a ≤ S4x1024x1024.size a
  hwx0_4 : ∀ i : grid0.Coords, EltTy.bits .bf16 = 32 ∨ (Rect.block (s := S4x1024x1024) S4x1024x1024.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S4x1x1024.size a ≤ S4x1x1024.size a
  hwx0_5 : ∀ i : grid0.Coords, EltTy.bits .f32 = 32 ∨ (Rect.block (s := S4x1x1024) S4x1x1024.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S256x1024.size a ≤ S8192x1024.size a
  hwx0_6 : ∀ i : grid0.Coords, EltTy.bits .f32 = 32 ∨ (Rect.block (s := S8192x1024) S256x1024.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S256x1024.size a ≤ S8192x1024.size a
  hwx0_7 : ∀ i : grid0.Coords, EltTy.bits .f32 = 32 ∨ (Rect.block (s := S8192x1024) S256x1024.size (cc0_transform_7 i) (hinb0_7 i)).WholeWords (EltTy.packing .f32)

variable [Facts₀]

def dot_S256x1024_S1024x1024_S256x1024_1_0_0_1_n_n : DotDims S256x1024 S1024x1024 S256x1024 where
  lhsContracting := [1]
  rhsContracting := [0]
  lhsNonContracting := [0]
  rhsNonContracting := [1]
  lhsBatch := []
  rhsBatch := []
  wf := dot_S256x1024_S1024x1024_S256x1024_1_0_0_1_n_n_wf

abbrev win0_0 : Pipeline.Window sig grid0 :=
  Pipeline.Window.ofSpec (Memref.whole main_v6) S256x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v7) S256x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S256x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S4x1024x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v3) S4x1024x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v5) S4x1x1024.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v8_0) S256x1024.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v8_1) S256x1024.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S8192x1024 : Shape := ⟨2, ![8192, 1024]⟩
abbrev S4x1024x1024 : Shape := ⟨3, ![4, 1024, 1024]⟩
abbrev S4x1024 : Shape := ⟨2, ![4, 1024]⟩
abbrev S8192x4x1024 : Shape := ⟨3, ![8192, 4, 1024]⟩
abbrev S1x4x1024 : Shape := ⟨3, ![1, 4, 1024]⟩
abbrev S8192x1x1024 : Shape := ⟨3, ![8192, 1, 1024]⟩
abbrev S_ : Shape := ⟨0, ![]⟩

abbrev nBuf : Space → Nat
  | .hbm => 54
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S4x1024x1024, .f32⟩
  | .hbm, ⟨4, _⟩ => ⟨S4x1024, .f32⟩
  | .hbm, ⟨5, _⟩ => ⟨S4x1024x1024, .f32⟩
  | .hbm, ⟨6, _⟩ => ⟨S4x1024, .f32⟩
  | .hbm, ⟨7, _⟩ => ⟨S8192x4x1024, .f32⟩
  | .hbm, ⟨8, _⟩ => ⟨S8192x4x1024, .f32⟩
  | .hbm, ⟨9, _⟩ => ⟨S8192x4x1024, .f32⟩
  | .hbm, ⟨10, _⟩ => ⟨S1x4x1024, .f32⟩
  | .hbm, ⟨11, _⟩ => ⟨S8192x4x1024, .f32⟩
  | .hbm, ⟨12, _⟩ => ⟨S8192x4x1024, .f32⟩
  | .hbm, ⟨13, _⟩ => ⟨S1x4x1024, .f32⟩
  | .hbm, ⟨14, _⟩ => ⟨S8192x4x1024, .f32⟩
  | .hbm, ⟨15, _⟩ => ⟨S8192x4x1024, .f32⟩
  | .hbm, ⟨16, _⟩ => ⟨S8192x1x1024, .f32⟩
  | .hbm, ⟨17, _⟩ => ⟨S8192x1024, .f32⟩
  | .hbm, ⟨18, _⟩ => ⟨S8192x1024, .f32⟩
  | .hbm, ⟨19, _⟩ => ⟨S8192x1024, .f32⟩
  | .hbm, ⟨20, _⟩ => ⟨S_, .f32⟩
  | .hbm, ⟨21, _⟩ => ⟨S8192x1024, .f32⟩
  | .hbm, ⟨22, _⟩ => ⟨S8192x1024, .f32⟩
  | .hbm, ⟨23, _⟩ => ⟨S_, .f32⟩
  | .hbm, ⟨24, _⟩ => ⟨S8192x1024, .f32⟩
  | .hbm, ⟨25, _⟩ => ⟨S8192x1024, .f32⟩
  | .hbm, ⟨26, _⟩ => ⟨S8192x1x1024, .f32⟩
  | .hbm, ⟨27, _⟩ => ⟨S8192x1024, .f32⟩
  | .hbm, ⟨28, _⟩ => ⟨S8192x1024, .f32⟩
  | .hbm, ⟨29, _⟩ => ⟨S8192x1024, .f32⟩
  | .hbm, ⟨30, _⟩ => ⟨S_, .f32⟩
  | .hbm, ⟨31, _⟩ => ⟨S8192x1024, .f32⟩
  | .hbm, ⟨32, _⟩ => ⟨S8192x1024, .f32⟩
  | .hbm, ⟨33, _⟩ => ⟨S_, .f32⟩
  | .hbm, ⟨34, _⟩ => ⟨S8192x1024, .f32⟩
  | .hbm, ⟨35, _⟩ => ⟨S8192x1024, .f32⟩
  | .hbm, ⟨36, _⟩ => ⟨S8192x1x1024, .f32⟩
  | .hbm, ⟨37, _⟩ => ⟨S8192x1024, .f32⟩
  | .hbm, ⟨38, _⟩ => ⟨S8192x1024, .f32⟩
  | .hbm, ⟨39, _⟩ => ⟨S8192x1x1024, .f32⟩
  | .hbm, ⟨40, _⟩ => ⟨S8192x1024, .f32⟩
  | .hbm, ⟨41, _⟩ => ⟨S8192x1024, .f32⟩
  | .hbm, ⟨42, _⟩ => ⟨S8192x1024, .f32⟩
  | .hbm, ⟨43, _⟩ => ⟨S_, .f32⟩
  | .hbm, ⟨44, _⟩ => ⟨S8192x1024, .f32⟩
  | .hbm, ⟨45, _⟩ => ⟨S8192x1024, .f32⟩
  | .hbm, ⟨46, _⟩ => ⟨S_, .f32⟩
  | .hbm, ⟨47, _⟩ => ⟨S8192x1024, .f32⟩
  | .hbm, ⟨48, _⟩ => ⟨S8192x1024, .f32⟩
  | .hbm, ⟨49, _⟩ => ⟨S8192x1024, .f32⟩
  | .hbm, ⟨50, _⟩ => ⟨S8192x1024, .f32⟩
  | .hbm, ⟨51, _⟩ => ⟨S8192x1024, .f32⟩
  | .hbm, ⟨52, _⟩ => ⟨S8192x1024, .f32⟩
  | .hbm, ⟨53, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst : Ref sig .tc := ⟨.hbm, 20, rfl⟩
abbrev main_v13 : Ref sig .tc := ⟨.hbm, 21, rfl⟩
abbrev main_v14 : Ref sig .tc := ⟨.hbm, 22, rfl⟩
abbrev main_cst_0 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_1 : Ref sig .tc := ⟨.hbm, 30, rfl⟩
abbrev main_v21 : Ref sig .tc := ⟨.hbm, 31, rfl⟩
abbrev main_v22 : Ref sig .tc := ⟨.hbm, 32, rfl⟩
abbrev main_cst_2 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_cst_3 : Ref sig .tc := ⟨.hbm, 43, rfl⟩
abbrev main_v32 : Ref sig .tc := ⟨.hbm, 44, rfl⟩
abbrev main_v33 : Ref sig .tc := ⟨.hbm, 45, rfl⟩
abbrev main_cst_4 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩

abbrev nD : Nat := 1
abbrev τ : Topo := Topo.v7x

variable {F : FTy → Type} [FloatOps F]

class Facts₀ : Prop where
  bcast_S4x1024_S1x4x1024_1_2 : S4x1024.BroadcastsInDim S1x4x1024 (![1, 2] : Fin 2 → Fin S1x4x1024.rank)
  bcast_S1x4x1024_S8192x4x1024_0_1_2 : S1x4x1024.BroadcastsInDim S8192x4x1024 (![0, 1, 2] : Fin 3 → Fin S8192x4x1024.rank)
  slices_S8192x4x1024_S8192x1x1024_0_0_0 : S8192x4x1024.Slices ![0, 0, 0] S8192x1x1024
  shapeCasts_S8192x1x1024_S8192x1024 : S8192x1x1024.ShapeCasts S8192x1024
  bcast_S_S8192x1024 : S_.BroadcastsInDim S8192x1024 (![] : Fin 0 → Fin S8192x1024.rank)
  slices_S8192x4x1024_S8192x1x1024_0_1_0 : S8192x4x1024.Slices ![0, 1, 0] S8192x1x1024
  slices_S8192x4x1024_S8192x1x1024_0_2_0 : S8192x4x1024.Slices ![0, 2, 0] S8192x1x1024
  slices_S8192x4x1024_S8192x1x1024_0_3_0 : S8192x4x1024.Slices ![0, 3, 0] S8192x1x1024
  dot_S8192x1024_S4x1024x1024_S8192x4x1024_1_2_0_01_n_n_wf : DotDims.WF S8192x1024 S4x1024x1024 S8192x4x1024 [1] [2] [0] [0, 1] [] []

variable [Facts₀]

def dot_S8192x1024_S4x1024x1024_S8192x4x1024_1_2_0_01_n_n : DotDims S8192x1024 S4x1024x1024 S8192x4x1024 where
  lhsContracting := [1]
  rhsContracting := [2]
  lhsNonContracting := [0]
  rhsNonContracting := [0, 1]
  lhsBatch := []
  rhsBatch := []
  wf := dot_S8192x1024_S4x1024x1024_S8192x4x1024_1_2_0_01_n_n_wf

class Facts : Prop extends Facts₀ where

variable [Facts]
-- ==== Proof.Spec.lean ====
/-
  The LSTM cell as one pair of whole-array functions over the extended reals.

  For a batch row `b` and a hidden unit `o`, gate `g` (0 input, 1 forget, 2 candidate, 3 output) has the
  pre-activation

      a g b o = (Σ_k x[b,k] · Wx[g,o,k]) + (Σ_k h[b,k] · Wh[g,o,k]) + (bx[g,o] + bh[g,o]),

  the new cell state is `c' = σ(a 1) · c + σ(a 0) · tanh (a 2)` and the new hidden state is
  `h' = σ(a 3) · tanh c'`, with `σ y = 1 / (1 + e^(-y))` on the extended reals.  The same functions arise when the two
  biases are added one after the other instead of being summed first: addition of extended reals is associative
  (`pre_eq_seq`), at infinities too, so no finiteness is used.
-/
import Idealize.ShloMosaic.PureOps.Ideal
import Idealize.ShloMosaic.Lib.ValueIdx

noncomputable section

open scoped BigOperators

namespace Cert.LstmCell

open Idealize.ShloMosaic Idealize.ShloMosaic.ValueIdx

/-- Rows of activations: [batch, features]. -/
abbrev SAct : Shape := ⟨2, ![8192, 1024]⟩
/-- The four gates' weight matrices stacked: [gate, unit, feature]. -/
abbrev SWts : Shape := ⟨3, ![4, 1024, 1024]⟩
/-- The four gates' bias rows stacked: [gate, unit]. -/
abbrev SBias : Shape := ⟨2, ![4, 1024]⟩

variable (x h c : SAct.Idx → EReal) (Wx Wh : SWts.Idx → EReal) (bx bh : SBias.Idx → EReal)

/-- Row `b` of `x` against row `o` of gate `g`'s matrix. -/
def dotRow (x : SAct.Idx → EReal) (W : SWts.Idx → EReal) (g : Fin 4) (b : Fin 8192) (o : Fin 1024) : EReal :=
  ∑ k : Fin 1024, x (ix2 b k) * W (ix3 g o k)

/-- Gate `g`'s pre-activation, the two biases summed first. -/
def pre (g : Fin 4) (b : Fin 8192) (o : Fin 1024) : EReal :=
  dotRow x Wx g b o + dotRow h Wh g b o + (bx (ix2 g o) + bh (ix2 g o))

/-- The same with the biases added one after the other. -/
def preSeq (g : Fin 4) (b : Fin 8192) (o : Fin 1024) : EReal :=
  dotRow x Wx g b o + dotRow h Wh g b o + bx (ix2 g o) + bh (ix2 g o)

/-- The two groupings agree: addition on the extended reals is associative. -/
theorem pre_eq_seq (g : Fin 4) (b : Fin 8192) (o : Fin 1024) :
    preSeq x h Wx Wh bx bh g b o = pre x h Wx Wh bx bh g b o := by
  unfold preSeq pre
  exact add_assoc _ _ _

/-- The new cell state at `(b, o)`. -/
def cellAt (b : Fin 8192) (o : Fin 1024) : EReal :=
  Ideal.logistic (pre x h Wx Wh bx bh 1 b o) * c (ix2 b o)
    + Ideal.logistic (pre x h Wx Wh bx bh 0 b o) * Ideal.tanh (pre x h Wx Wh bx bh 2 b o)

/-- The new hidden state at `(b, o)`. -/
def hiddenAt (b : Fin 8192) (o : Fin 1024) : EReal :=
  Ideal.logistic (pre x h Wx Wh bx bh 3 b o) * Ideal.tanh (cellAt x h c Wx Wh bx bh b o)

/-- The new cell state as an array. -/
def cellNext : SAct.Idx → EReal := fun i => cellAt x h c Wx Wh bx bh (i 0) (i 1)

/-- The new hidden state as an array. -/
def hiddenNext : SAct.Idx → EReal := fun i => hiddenAt x h c Wx Wh bx bh (i 0) (i 1)

/-- The word `0x3F800000` is the float `1.0`: sign clear, biased exponent 127, zero fraction, so `2^23 · 2^(127-127-23) = 1`. -/
theorem one_word : Ideal.ofBits .f32 0x3F800000#32 = 1 := by
  simp [Ideal.ofBits, Ideal.ieee, -EReal.coe_mul]
  norm_num

/-- `1 / (1 + e^(-z))` spelt with that word for both ones is the logistic function, on every extended real. -/
theorem logistic_expanded (z : EReal) :
    Ideal.div (Ideal.ofBits .f32 0x3F800000#32) (Ideal.ofBits .f32 0x3F800000#32 + Ideal.exp (-z)) = Ideal.logistic z := by
  rw [one_word]
  rfl

end Cert.LstmCell

end
-- ==== Proof.RefIsSpec.lean ====
/-
  The reference computes the LSTM cell of `Spec.lean`.

  Its program forms all four gates at once, `[batch, gate, unit]`: two contractions over the feature axis, added, then
  the two bias stacks added one after the other; gate `g` is the slice at `g` of the middle axis, reshaped to
  `[batch, unit]`.  Read at `(b, g, o)` that array is `preSeq … g b o`.  The logistic function appears expanded,
  `1 / (1 + e^(-y))` with both ones the float `1.0`; on the extended reals that is `Ideal.logistic y`.  The
  reference's argument order is x, h, c, Wx, bx, Wh, bh.
-/
import proofs.«123325_j3169685865216_1_alg».proof.Proof.Gen.ReferenceIdeal.Read
import proofs.«123325_j3169685865216_1_alg».proof.Proof.Spec

noncomputable section

open scoped BigOperators

namespace Cert.LstmCell.Ref

open Cert.ReferenceIdeal Cert.ReferenceIdeal.Read Idealize.ShloMosaic Idealize.ShloMosaic.ValueIdx Cert.LstmCell

abbrev Act := (⟨S8192x1024, .f32⟩ : BufTy).Contents (Elt Ideal)
abbrev Wts := (⟨S4x1024x1024, .f32⟩ : BufTy).Contents (Elt Ideal)
abbrev Bia := (⟨S4x1024, .f32⟩ : BufTy).Contents (Elt Ideal)

variable (x0 x1 x2 : Act) (x3 : Wts) (x4 : Bia) (x5 : Wts) (x6 : Bia)

/-! ## The index maps of the gate array, at coordinates -/

theorem lidx0 (b : Fin 8192) (g : Fin 4) (o k : Fin 1024) : lidx_main_v0 (ix3 b g o) k = ix2 b k :=
  funext fun a => Fin.ext (by match a with | ⟨0, _⟩ => rfl | ⟨1, _⟩ => rfl)
theorem ridx0 (b : Fin 8192) (g : Fin 4) (o k : Fin 1024) : ridx_main_v0 (ix3 b g o) k = ix3 g o k :=
  funext fun a => Fin.ext (by match a with | ⟨0, _⟩ => rfl | ⟨1, _⟩ => rfl | ⟨2, _⟩ => rfl)
theorem lidx1 (b : Fin 8192) (g : Fin 4) (o k : Fin 1024) : lidx_main_v1 (ix3 b g o) k = ix2 b k :=
  funext fun a => Fin.ext (by match a with | ⟨0, _⟩ => rfl | ⟨1, _⟩ => rfl)
theorem ridx1 (b : Fin 8192) (g : Fin 4) (o k : Fin 1024) : ridx_main_v1 (ix3 b g o) k = ix3 g o k :=
  funext fun a => Fin.ext (by match a with | ⟨0, _⟩ => rfl | ⟨1, _⟩ => rfl | ⟨2, _⟩ => rfl)
theorem bidx4 (b : Fin 8192) (g : Fin 4) (o : Fin 1024) : idx_main_v3 (idx_main_v4 (ix3 b g o)) = ix2 g o :=
  funext fun a => Fin.ext (by match a with | ⟨0, _⟩ => rfl | ⟨1, _⟩ => rfl)
theorem bidx7 (b : Fin 8192) (g : Fin 4) (o : Fin 1024) : idx_main_v6 (idx_main_v7 (ix3 b g o)) = ix2 g o :=
  funext fun a => Fin.ext (by match a with | ⟨0, _⟩ => rfl | ⟨1, _⟩ => rfl)

/-- The gate array at `(b, g, o)`: both contractions, then the biases one after the other. -/
theorem gates_apply (b : Fin 8192) (g : Fin 4) (o : Fin 1024) :
    val_main_v8 (F := Ideal) x0 x1 x3 x4 x5 x6 (ix3 b g o) = preSeq x0 x1 x3 x5 x4 x6 g b o := by
  rw [val_main_v8_apply, val_main_v5_apply, val_main_v2_apply, val_main_v0_apply, val_main_v1_apply,
    val_main_v4_apply, val_main_v3_apply, val_main_v7_apply, val_main_v6_apply]
  simp only [lidx0, ridx0, lidx1, ridx1, bidx4, bidx7, Ideal.addf_def]
  rfl

/-! ## Gate `g` is the slice at `g`, reshaped: `(b, o)` reads `(b, g, o)` -/

theorem sidx0 (b : Fin 8192) (o : Fin 1024) : idx_main_v9 (idx_main_v10 (ix2 b o)) = ix3 b (0 : Fin 4) o :=
  funext fun a => Fin.ext (by
    match a with
    | ⟨0, _⟩ => show (b.val * 1024 + o.val) / 1024 = b.val; have := o.isLt; omega
    | ⟨1, _⟩ => rfl
    | ⟨2, _⟩ => show (b.val * 1024 + o.val) % 1024 = o.val; have := o.isLt; omega)
theorem sidx1 (b : Fin 8192) (o : Fin 1024) : idx_main_v17 (idx_main_v18 (ix2 b o)) = ix3 b (1 : Fin 4) o :=
  funext fun a => Fin.ext (by
    match a with
    | ⟨0, _⟩ => show (b.val * 1024 + o.val) / 1024 = b.val; have := o.isLt; omega
    | ⟨1, _⟩ => rfl
    | ⟨2, _⟩ => show (b.val * 1024 + o.val) % 1024 = o.val; have := o.isLt; omega)
theorem sidx2 (b : Fin 8192) (o : Fin 1024) : idx_main_v25 (idx_main_v26 (ix2 b o)) = ix3 b (2 : Fin 4) o :=
  funext fun a => Fin.ext (by
    match a with
    | ⟨0, _⟩ => show (b.val * 1024 + o.val) / 1024 = b.val; have := o.isLt; omega
    | ⟨1, _⟩ => rfl
    | ⟨2, _⟩ => show (b.val * 1024 + o.val) % 1024 = o.val; have := o.isLt; omega)
theorem sidx3 (b : Fin 8192) (o : Fin 1024) : idx_main_v28 (idx_main_v29 (ix2 b o)) = ix3 b (3 : Fin 4) o :=
  funext fun a => Fin.ext (by
    match a with
    | ⟨0, _⟩ => show (b.val * 1024 + o.val) / 1024 = b.val; have := o.isLt; omega
    | ⟨1, _⟩ => rfl
    | ⟨2, _⟩ => show (b.val * 1024 + o.val) % 1024 = o.val; have := o.isLt; omega)

theorem gate0 (b : Fin 8192) (o : Fin 1024) :
    val_main_v10 (F := Ideal) x0 x1 x3 x4 x5 x6 (ix2 b o) = preSeq x0 x1 x3 x5 x4 x6 0 b o := by
  rw [val_main_v10_apply, val_main_v9_apply, sidx0, gates_apply]
theorem gate1 (b : Fin 8192) (o : Fin 1024) :
    val_main_v18 (F := Ideal) x0 x1 x3 x4 x5 x6 (ix2 b o) = preSeq x0 x1 x3 x5 x4 x6 1 b o := by
  rw [val_main_v18_apply, val_main_v17_apply, sidx1, gates_apply]
theorem gate2 (b : Fin 8192) (o : Fin 1024) :
    val_main_v26 (F := Ideal) x0 x1 x3 x4 x5 x6 (ix2 b o) = preSeq x0 x1 x3 x5 x4 x6 2 b o := by
  rw [val_main_v26_apply, val_main_v25_apply, sidx2, gates_apply]
theorem gate3 (b : Fin 8192) (o : Fin 1024) :
    val_main_v29 (F := Ideal) x0 x1 x3 x4 x5 x6 (ix2 b o) = preSeq x0 x1 x3 x5 x4 x6 3 b o := by
  rw [val_main_v29_apply, val_main_v28_apply, sidx3, gates_apply]

/-! ## The activations -/

/-- The input gate: the expanded logistic of gate 0. -/
theorem act0 (b : Fin 8192) (o : Fin 1024) :
    val_main_v16 (F := Ideal) x0 x1 x3 x4 x5 x6 (ix2 b o) = Ideal.logistic (preSeq x0 x1 x3 x5 x4 x6 0 b o) := by
  rw [val_main_v16_apply, val_main_v15_apply, val_main_cst_0_apply, val_main_v14_apply, val_main_v13_apply,
    val_main_cst_apply, val_main_v12_apply, val_main_v11_apply, gate0]
  exact logistic_expanded _
/-- The forget gate: the expanded logistic of gate 1. -/
theorem act1 (b : Fin 8192) (o : Fin 1024) :
    val_main_v24 (F := Ideal) x0 x1 x3 x4 x5 x6 (ix2 b o) = Ideal.logistic (preSeq x0 x1 x3 x5 x4 x6 1 b o) := by
  rw [val_main_v24_apply, val_main_v23_apply, val_main_cst_2_apply, val_main_v22_apply, val_main_v21_apply,
    val_main_cst_1_apply, val_main_v20_apply, val_main_v19_apply, gate1]
  exact logistic_expanded _
/-- The candidate: tanh of gate 2. -/
theorem act2 (b : Fin 8192) (o : Fin 1024) :
    val_main_v27 (F := Ideal) x0 x1 x3 x4 x5 x6 (ix2 b o) = Ideal.tanh (preSeq x0 x1 x3 x5 x4 x6 2 b o) := by
  rw [val_main_v27_apply, gate2]
  rfl
/-- The output gate: the expanded logistic of gate 3. -/
theorem act3 (b : Fin 8192) (o : Fin 1024) :
    val_main_v35 (F := Ideal) x0 x1 x3 x4 x5 x6 (ix2 b o) = Ideal.logistic (preSeq x0 x1 x3 x5 x4 x6 3 b o) := by
  rw [val_main_v35_apply, val_main_v34_apply, val_main_cst_4_apply, val_main_v33_apply, val_main_v32_apply,
    val_main_cst_3_apply, val_main_v31_apply, val_main_v30_apply, gate3]
  exact logistic_expanded _

/-! ## The two results -/

/-- The reference's second result is the new cell state. -/
theorem cell_eq : val_main_v38 (F := Ideal) x0 x1 x2 x3 x4 x5 x6 = cellNext x0 x1 x2 x3 x5 x4 x6 := by
  funext i
  obtain ⟨b, o, rfl⟩ : ∃ (b : Fin 8192) (o : Fin 1024), i = ix2 b o := ⟨i 0, i 1, eq_ix2 i⟩
  rw [val_main_v38_apply, val_main_v36_apply, val_main_v37_apply, act1, act0, act2]
  simp only [pre_eq_seq]
  rfl

/-- The reference's first result is the new hidden state. -/
theorem hidden_eq : val_main_v40 (F := Ideal) x0 x1 x2 x3 x4 x5 x6 = hiddenNext x0 x1 x2 x3 x5 x4 x6 := by
  funext i
  obtain ⟨b, o, rfl⟩ : ∃ (b : Fin 8192) (o : Fin 1024), i = ix2 b o := ⟨i 0, i 1, eq_ix2 i⟩
  rw [val_main_v40_apply, val_main_v39_apply, act3, cell_eq]
  simp only [pre_eq_seq]
  rfl

end Cert.LstmCell.Ref

end
-- ==== Proof.HostPrefix.lean ====
/-
  The arrays the kernel's region finds, as functions of the arguments.

  Before the region the host transposes each weight stack on its last two axes (so that the contracted feature axis comes
  first), adds the two bias stacks and gives the sum a unit middle axis, and changes the format of x, h and both weight
  stacks, which on the extended reals is the identity.  So at coordinates:
  the staged x and h read the arguments; the staged weights at `(g, k, o)` read `W[g, o, k]`; the staged bias at
  `(g, 0, o)` reads `bx[g, o] + bh[g, o]`.
-/
import proofs.«123325_j3169685865216_1_alg».proof.Proof.Gen.KernelIdeal.Frame
import Idealize.ShloMosaic.Lib.ValueIdx
import Idealize.ShloMosaic.Lib.ValueLayout
import Idealize.ShloMosaic.Lib.Pipeline.Value
import Idealize.ShloMosaic.Lib.StableHlo.Run

noncomputable section

namespace Cert.LstmCell.Host

open Cert.KernelIdeal Cert.KernelIdeal.Gen Idealize.ShloMosaic Idealize.ShloMosaic.TcCoe Idealize.ShloMosaic.ValueIdx
open Idealize.ShloMosaic.StableHlo

variable (m : (ℓ : Loc nD τ sig) → Buf (Elt Ideal) ℓ)

/-! ## The seven arguments as launched, each at its literal type -/

abbrev argX (c : Dev nD) : S8192x1024.Idx → EReal := m ((c : Thread nD τ).loc main_arg0)
abbrev argH (c : Dev nD) : S8192x1024.Idx → EReal := m ((c : Thread nD τ).loc main_arg1)
abbrev argC (c : Dev nD) : S8192x1024.Idx → EReal := m ((c : Thread nD τ).loc main_arg2)
abbrev argWx (c : Dev nD) : S4x1024x1024.Idx → EReal := m ((c : Thread nD τ).loc main_arg3)
abbrev argBx (c : Dev nD) : S4x1024.Idx → EReal := m ((c : Thread nD τ).loc main_arg4)
abbrev argWh (c : Dev nD) : S4x1024x1024.Idx → EReal := m ((c : Thread nD τ).loc main_arg5)
abbrev argBh (c : Dev nD) : S4x1024.Idx → EReal := m ((c : Thread nD τ).loc main_arg6)

/-! ## The staged arrays -/

/-- The staged x is the argument x. -/
theorem staged_x (c : Dev nD) : (V m c main_v6 : S8192x1024.Idx → EReal) = m ((c : Thread nD τ).loc main_arg0) := by
  dsimp only [Gen.V, Gen.hostOps0]; after_results; rfl

/-- The staged h is the argument h. -/
theorem staged_h (c : Dev nD) : (V m c main_v7 : S8192x1024.Idx → EReal) = m ((c : Thread nD τ).loc main_arg1) := by
  dsimp only [Gen.V, Gen.hostOps0]; after_results; rfl

/-- The staged input weights are the argument's stack, each matrix transposed. -/
theorem staged_wx (c : Dev nD) : (V m c main_v1 : S4x1024x1024.Idx → EReal)
    = transpose S4x1024x1024 [0, 2, 1] (m ((c : Thread nD τ).loc main_arg3)) transposes_S4x1024x1024_S4x1024x1024_0_2_1 := by
  dsimp only [Gen.V, Gen.hostOps0]; after_results; rfl

/-- The staged recurrent weights are the argument's stack, each matrix transposed. -/
theorem staged_wh (c : Dev nD) : (V m c main_v3 : S4x1024x1024.Idx → EReal)
    = transpose S4x1024x1024 [0, 2, 1] (m ((c : Thread nD τ).loc main_arg5)) transposes_S4x1024x1024_S4x1024x1024_0_2_1 := by
  dsimp only [Gen.V, Gen.hostOps0]; after_results; rfl

/-- The staged bias is the sum of the two bias stacks with a unit middle axis. -/
theorem staged_bias (c : Dev nD) : (V m c main_v5 : S4x1x1024.Idx → EReal)
    = shapeCast S4x1x1024 (addf (F := Ideal) (φ := .f32) (m ((c : Thread nD τ).loc main_arg4)) (m ((c : Thread nD τ).loc main_arg6))) shapeCasts_S4x1024_S4x1x1024 := by
  dsimp only [Gen.V, Gen.hostOps0]; after_results; rfl

/-- The staged input weights at `(g, k, o)` are `Wx[g, o, k]`. -/
theorem staged_wx_apply (c : Dev nD) (g : Fin 4) (k o : Fin 1024) :
    (V m c main_v1 : S4x1024x1024.Idx → EReal) (ix3 g k o) = argWx m c (ix3 g o k) := by
  rw [staged_wx]
  exact transpose_ix3_021_apply _ _ g k o

/-- The staged recurrent weights at `(g, k, o)` are `Wh[g, o, k]`. -/
theorem staged_wh_apply (c : Dev nD) (g : Fin 4) (k o : Fin 1024) :
    (V m c main_v3 : S4x1024x1024.Idx → EReal) (ix3 g k o) = argWh m c (ix3 g o k) := by
  rw [staged_wh]
  exact transpose_ix3_021_apply _ _ g k o

/-- The staged bias at `(g, u, o)` is `bx[g, o] + bh[g, o]`. -/
theorem staged_bias_apply (c : Dev nD) (g : Fin 4) (u : Fin 1) (o : Fin 1024) :
    (V m c main_v5 : S4x1x1024.Idx → EReal) (ix3 g u o)
      = argBx m c (ix2 g o) + argBh m c (ix2 g o) := by
  rw [staged_bias]
  refine (shapeCast_apply _ shapeCasts_S4x1024_S4x1x1024 (ix3 g u o) (ix2 g o) ?_).trans rfl
  rw [Shape.rowMajor_val_two, Shape.rowMajor_val_three]
  show g.val * 1024 + o.val = (g.val * 1 + u.val) * 1024 + o.val
  have := u.isLt
  omega

end Cert.LstmCell.Host

end
-- ==== Proof.Payload.lean ====
/-
  What the kernel's body leaves in its two output blocks, at an entry `(p, q)` of a [256, 1024] block.

  The body reads a block of x, of h and of c, and the whole transposed weight stacks and the summed bias.  For each
  gate `g` it takes plane `g` of each weight stack and row `g` of the bias, and forms

      blkPre g p q = (Σ_k xb[p,k] · wx[g,k,q]) + (Σ_k hb[p,k] · wh[g,k,q]) + bs[g,0,q]:

  a product into a zero accumulator is the plain sum over the shared axis, and the bias row is repeated down the rows.
  The cell block is `σ(blkPre 1) · cb + σ(blkPre 0) · tanh (blkPre 2)` and the hidden block is
  `σ(blkPre 3) · tanh` of the cell block.
-/
import proofs.«123325_j3169685865216_1_alg».proof.Proof.Gen.KernelIdeal.Frame
import Idealize.ShloMosaic.Lib.ValueIdx
import Idealize.ShloMosaic.Lib.ValueLayout
import Idealize.ShloMosaic.Lib.Pipeline.Value
import Idealize.ShloMosaic.PureOps.Ideal.Laws

noncomputable section
open scoped BigOperators

namespace Cert.LstmCell.Body

open Cert.KernelIdeal Cert.KernelIdeal.Gen Idealize.ShloMosaic Idealize.ShloMosaic.ValueIdx

/-! ## A block times a matrix -/

theorem lhs_axis0 (i : S256x1024.Idx) (q : dot_S256x1024_S1024x1024_S256x1024_1_0_0_1_n_n.contr.Idx) :
    (dot_S256x1024_S1024x1024_S256x1024_1_0_0_1_n_n.lhsIdx i q 0).val = (i 0).val := by
  unfold DotDims.lhsIdx
  rw [dif_neg (show ¬(0 : Fin S256x1024.rank) ∈ dot_S256x1024_S1024x1024_S256x1024_1_0_0_1_n_n.lhsBatch by decide), dif_pos (show (0 : Fin S256x1024.rank) ∈ dot_S256x1024_S1024x1024_S256x1024_1_0_0_1_n_n.lhsNonContracting by decide)]
  rfl
theorem lhs_axis1 (i : S256x1024.Idx) (q : dot_S256x1024_S1024x1024_S256x1024_1_0_0_1_n_n.contr.Idx) :
    (dot_S256x1024_S1024x1024_S256x1024_1_0_0_1_n_n.lhsIdx i q 1).val = (q ⟨0, by decide⟩).val :=
  dot_S256x1024_S1024x1024_S256x1024_1_0_0_1_n_n.lhsIdx_val_of_single rfl i q
theorem rhs_axis0 (i : S256x1024.Idx) (q : dot_S256x1024_S1024x1024_S256x1024_1_0_0_1_n_n.contr.Idx) :
    (dot_S256x1024_S1024x1024_S256x1024_1_0_0_1_n_n.rhsIdx i q 0).val = (q ⟨0, by decide⟩).val :=
  dot_S256x1024_S1024x1024_S256x1024_1_0_0_1_n_n.rhsIdx_val_of_single rfl i q
theorem rhs_axis1 (i : S256x1024.Idx) (q : dot_S256x1024_S1024x1024_S256x1024_1_0_0_1_n_n.contr.Idx) :
    (dot_S256x1024_S1024x1024_S256x1024_1_0_0_1_n_n.rhsIdx i q 1).val = (i 1).val := by
  unfold DotDims.rhsIdx
  rw [dif_neg (show ¬(1 : Fin S1024x1024.rank) ∈ dot_S256x1024_S1024x1024_S256x1024_1_0_0_1_n_n.rhsBatch by decide), dif_pos (show (1 : Fin S1024x1024.rank) ∈ dot_S256x1024_S1024x1024_S256x1024_1_0_0_1_n_n.rhsNonContracting by decide)]
  rfl

/-- A [256,1024] block times a [1024,1024] matrix into the zero accumulator, at `(p, q)`: the sum over the shared axis. -/
theorem matmul_read (A : FVec Ideal S256x1024 .bf16) (W : FVec Ideal S1024x1024 .bf16) (p : Fin 256) (q : Fin 1024) :
    matmul dot_S256x1024_S1024x1024_S256x1024_1_0_0_1_n_n none A W (constant S256x1024 .f32 0x00000000#32) (ix2 p q)
      = ∑ k : Fin 1024, A (ix2 p k) * W (ix2 k q) := by
  show FloatOps.matmul dot_S256x1024_S1024x1024_S256x1024_1_0_0_1_n_n none A W (constant S256x1024 .f32 0x00000000#32) (ix2 p q) = _
  rw [Ideal.matmul_constant_zero_apply, ← Equiv.sum_comp (contrEquiv1 dot_S256x1024_S1024x1024_S256x1024_1_0_0_1_n_n 1024 rfl rfl).symm]
  refine Finset.sum_congr rfl fun k _ => ?_
  have hk := contrEquiv1_symm_val dot_S256x1024_S1024x1024_S256x1024_1_0_0_1_n_n 1024 rfl rfl k
  have el : dot_S256x1024_S1024x1024_S256x1024_1_0_0_1_n_n.lhsIdx (ix2 p q) ((contrEquiv1 dot_S256x1024_S1024x1024_S256x1024_1_0_0_1_n_n 1024 rfl rfl).symm k) = ix2 p k := funext fun a => Fin.ext (by
    match a with
    | ⟨0, _⟩ => exact lhs_axis0 _ _
    | ⟨1, _⟩ => exact (lhs_axis1 _ _).trans hk)
  have er : dot_S256x1024_S1024x1024_S256x1024_1_0_0_1_n_n.rhsIdx (ix2 p q) ((contrEquiv1 dot_S256x1024_S1024x1024_S256x1024_1_0_0_1_n_n 1024 rfl rfl).symm k) = ix2 k q := funext fun a => Fin.ext (by
    match a with
    | ⟨0, _⟩ => exact (rhs_axis0 _ _).trans hk
    | ⟨1, _⟩ => exact rhs_axis1 _ _)
  rw [el, er]

/-! ## One gate's plane of a weight stack and row of the bias -/

/-- Plane `n` of a weight stack, its unit axis dropped, at `(k, q)`. -/
theorem plane_read (w : Vec Ideal S4x1024x1024 .bf16) (n : Nat) (hn : n < 4)
    (inb : ∀ a, (![n, 0, 0] : Fin 3 → Nat) a + S1x1024x1024.size a ≤ S4x1024x1024.size a) (k q : Fin 1024) :
    (shapeCast S1024x1024 (View.ld w (Rect.unit (s := S4x1024x1024) ![n, 0, 0] S1x1024x1024.size inb)) shapeCasts_S1x1024x1024_S1024x1024 : FVec Ideal S1024x1024 .bf16) (ix2 k q)
      = w (ix3 (⟨n, hn⟩ : Fin 4) k q) := by
  refine (shapeCast_1ab_ab_apply _ _ k q).trans ?_
  show w ((Rect.unit (s := S4x1024x1024) ![n, 0, 0] S1x1024x1024.size inb).idx (ix3 (0 : Fin 1) k q)) = _
  refine congrArg w (funext fun a => Fin.ext ?_)
  match a with
  | ⟨0, _⟩ => show n + 1 * 0 = n; omega
  | ⟨1, _⟩ => show 0 + 1 * k.val = k.val; omega
  | ⟨2, _⟩ => show 0 + 1 * q.val = q.val; omega

/-- Row `n` of the bias, repeated down the 256 rows of a block, at `(p, q)`. -/
theorem row_read (β : Vec Ideal S4x1x1024 .f32) (n : Nat) (hn : n < 4)
    (inb : ∀ a, (![n, 0, 0] : Fin 3 → Nat) a + S1x1x1024.size a ≤ S4x1x1024.size a) (p : Fin 256) (q : Fin 1024) :
    (broadcastTo S256x1024 (shapeCast S1x1024 (View.ld β (Rect.unit (s := S4x1x1024) ![n, 0, 0] S1x1x1024.size inb)) shapeCasts_S1x1x1024_S1x1024 : FVec Ideal S1x1024 .f32) broadcasts_S1x1024_S256x1024 : FVec Ideal S256x1024 .f32) (ix2 p q)
      = β (ix3 (⟨n, hn⟩ : Fin 4) (0 : Fin 1) q) := by
  refine (broadcastTo_1b_ab_apply _ _ p q).trans ?_
  refine (shapeCast_1ab_ab_apply _ _ (0 : Fin 1) q).trans ?_
  show β ((Rect.unit (s := S4x1x1024) ![n, 0, 0] S1x1x1024.size inb).idx (ix3 (0 : Fin 1) (0 : Fin 1) q)) = _
  refine congrArg β (funext fun a => Fin.ext ?_)
  match a with
  | ⟨0, _⟩ => show n + 1 * 0 = n; omega
  | ⟨1, _⟩ => show 0 + 1 * 0 = 0; omega
  | ⟨2, _⟩ => show 0 + 1 * q.val = q.val; omega

/-! ## One gate -/

/-- Gate `g`'s pre-activation on a block. -/
def blkPre (xb hb : S256x1024.Idx → EReal) (wx wh : S4x1024x1024.Idx → EReal) (bs : S4x1x1024.Idx → EReal)
    (g : Fin 4) (p : Fin 256) (q : Fin 1024) : EReal :=
  (∑ k : Fin 1024, xb (ix2 p k) * wx (ix3 g k q)) + (∑ k : Fin 1024, hb (ix2 p k) * wh (ix3 g k q)) + bs (ix3 g (0 : Fin 1) q)

/-- The body's gate term from the two activation blocks, one loaded plane of each weight stack and one loaded bias row. -/
def gateVec (A B : FVec Ideal S256x1024 .bf16) (U V : Vec Ideal S1x1024x1024 .bf16) (β : Vec Ideal S1x1x1024 .f32) : FVec Ideal S256x1024 .f32 :=
  addf (addf (matmul dot_S256x1024_S1024x1024_S256x1024_1_0_0_1_n_n none A (shapeCast S1024x1024 U shapeCasts_S1x1024x1024_S1024x1024 : FVec Ideal S1024x1024 .bf16) (constant S256x1024 .f32 0x00000000#32))
      (matmul dot_S256x1024_S1024x1024_S256x1024_1_0_0_1_n_n none B (shapeCast S1024x1024 V shapeCasts_S1x1024x1024_S1024x1024 : FVec Ideal S1024x1024 .bf16) (constant S256x1024 .f32 0x00000000#32)))
    (broadcastTo S256x1024 (shapeCast S1x1024 β shapeCasts_S1x1x1024_S1x1024 : FVec Ideal S1x1024 .f32) broadcasts_S1x1024_S256x1024 : FVec Ideal S256x1024 .f32)

/-- The gate term over the planes and the row at `n`, read at `(p, q)`. -/
theorem gateVec_apply (xb hb : FVec Ideal S256x1024 .bf16) (wx wh : Vec Ideal S4x1024x1024 .bf16) (bs : Vec Ideal S4x1x1024 .f32)
    (n : Nat) (hn : n < 4)
    (inbW : ∀ a, (![n, 0, 0] : Fin 3 → Nat) a + S1x1024x1024.size a ≤ S4x1024x1024.size a)
    (inbB : ∀ a, (![n, 0, 0] : Fin 3 → Nat) a + S1x1x1024.size a ≤ S4x1x1024.size a) (p : Fin 256) (q : Fin 1024) :
    gateVec xb hb (View.ld wx (Rect.unit (s := S4x1024x1024) ![n, 0, 0] S1x1024x1024.size inbW))
        (View.ld wh (Rect.unit (s := S4x1024x1024) ![n, 0, 0] S1x1024x1024.size inbW))
        (View.ld bs (Rect.unit (s := S4x1x1024) ![n, 0, 0] S1x1x1024.size inbB)) (ix2 p q)
      = blkPre xb hb wx wh bs ⟨n, hn⟩ p q := by
  unfold gateVec blkPre
  rw [addf_apply, addf_apply, matmul_read, matmul_read, row_read bs n hn]
  simp only [plane_read _ n hn]

/-! ## The two output blocks -/

theorem zero2 : (![0, 0] : Fin 2 → Nat) = fun _ => 0 := funext fun a => by fin_cases a <;> rfl

/-- The cell block at `(p, q)`. -/
def blkCell (xb hb cb : S256x1024.Idx → EReal) (wx wh : S4x1024x1024.Idx → EReal) (bs : S4x1x1024.Idx → EReal)
    (p : Fin 256) (q : Fin 1024) : EReal :=
  Ideal.logistic (blkPre xb hb wx wh bs 1 p q) * cb (ix2 p q)
    + Ideal.logistic (blkPre xb hb wx wh bs 0 p q) * Ideal.tanh (blkPre xb hb wx wh bs 2 p q)

/-- The hidden block at `(p, q)`. -/
def blkHidden (xb hb cb : S256x1024.Idx → EReal) (wx wh : S4x1024x1024.Idx → EReal) (bs : S4x1x1024.Idx → EReal)
    (p : Fin 256) (q : Fin 1024) : EReal :=
  Ideal.logistic (blkPre xb hb wx wh bs 3 p q) * Ideal.tanh (blkCell xb hb cb wx wh bs p q)

/-- The body's second output block is the cell block. -/
theorem cell_block (xb hb : Vec Ideal S256x1024 .bf16) (cb : Vec Ideal S256x1024 .f32) (wx wh : Vec Ideal S4x1024x1024 .bf16) (bs : Vec Ideal S4x1x1024 .f32)
    (p : Fin 256) (q : Fin 1024) :
    out0_7 (F := Ideal) xb hb cb wx wh bs (ix2 p q) = blkCell xb hb cb wx wh bs p q := by
  unfold out0_7
  rw [View.canon_unit_zero zero2]
  simp only [View.ld_unit_zero (S := S256x1024) zero2]
  show FloatOps.addf (F := Ideal) (φ := .f32) (FloatOps.mulf (FloatOps.logistic (gateVec (k0_pay3 xb) (k0_pay4 hb) (View.ld wx r0_3) (View.ld wh r0_3) (View.ld bs r0_4) (ix2 p q))) (cb (ix2 p q)))
      (FloatOps.mulf (FloatOps.logistic (gateVec (k0_pay3 xb) (k0_pay4 hb) (View.ld wx r0_1) (View.ld wh r0_1) (View.ld bs r0_2) (ix2 p q)))
        (FloatOps.tanh (gateVec (k0_pay3 xb) (k0_pay4 hb) (View.ld wx r0_5) (View.ld wh r0_5) (View.ld bs r0_6) (ix2 p q)))) = _
  have e3 : k0_pay3 (F := Ideal) xb = xb := shapeCast_self _ _
  have e4 : k0_pay4 (F := Ideal) hb = hb := shapeCast_self _ _
  rw [e3, e4, gateVec_apply xb hb wx wh bs 1 (by decide), gateVec_apply xb hb wx wh bs 0 (by decide), gateVec_apply xb hb wx wh bs 2 (by decide)]
  rfl

/-- The body's first output block is the hidden block. -/
theorem hidden_block (xb hb : Vec Ideal S256x1024 .bf16) (cb : Vec Ideal S256x1024 .f32) (wx wh : Vec Ideal S4x1024x1024 .bf16) (bs : Vec Ideal S4x1x1024 .f32)
    (p : Fin 256) (q : Fin 1024) :
    out0_6 (F := Ideal) xb hb cb wx wh bs (ix2 p q) = blkHidden xb hb cb wx wh bs p q := by
  have hc := cell_block xb hb cb wx wh bs p q
  unfold out0_7 at hc
  rw [View.canon_unit_zero zero2] at hc
  simp only [View.ld_unit_zero (S := S256x1024) zero2] at hc
  unfold out0_6
  rw [View.canon_unit_zero zero2]
  simp only [View.ld_unit_zero (S := S256x1024) zero2]
  show FloatOps.mulf (F := Ideal) (φ := .f32) (FloatOps.logistic (gateVec (k0_pay3 xb) (k0_pay4 hb) (View.ld wx r0_7) (View.ld wh r0_7) (View.ld bs r0_8) (ix2 p q)))
      (FloatOps.tanh (k0_pay1 (k0_pay3 xb) (k0_pay4 hb) cb (k0_pay5 xb hb (View.ld wx r0_1) (View.ld wh r0_1) (View.ld bs r0_2)) (k0_pay6 xb hb (View.ld wx r0_3) (View.ld wh r0_3) (View.ld bs r0_4)) (View.ld wx r0_5) (View.ld wh r0_5) (View.ld bs r0_6) (ix2 p q))) = _
  have e3 : k0_pay3 (F := Ideal) xb = xb := shapeCast_self _ _
  have e4 : k0_pay4 (F := Ideal) hb = hb := shapeCast_self _ _
  rw [hc, e3, e4, gateVec_apply xb hb wx wh bs 3 (by decide)]
  rfl

end Cert.LstmCell.Body

end
-- ==== Proof.Blocks.lean ====
/-
  From blocks to arrays: the kernel's two results are the LSTM cell of `Spec.lean`.

  Grid point `t` (of 32) works on rows `256·t … 256·t + 255`: its x, h and c blocks and both output blocks are that band
  of rows, all 1024 columns, while the weight stacks and the bias are staged whole.  So entry `(p, q)` of a block is
  entry `(256·t + p, q)` of its array, a block's gate pre-activation is the array's (`pre_block`), and what point `t`
  writes back is band `t` of `cellNext` and of `hiddenNext`.  The 32 bands cover the 8192 rows (row `r` lies in band
  `r / 256`), so each result array ends holding the whole function.
-/
import proofs.«123325_j3169685865216_1_alg».proof.Proof.Gen.KernelIdeal.Value
import proofs.«123325_j3169685865216_1_alg».proof.Proof.Spec
import proofs.«123325_j3169685865216_1_alg».proof.Proof.HostPrefix
import proofs.«123325_j3169685865216_1_alg».proof.Proof.Payload

noncomputable section
open scoped BigOperators

namespace Cert.LstmCell.Blocks

open Cert.KernelIdeal Cert.KernelIdeal.Gen Idealize.ShloMosaic Idealize.ShloMosaic.TcCoe Idealize.SL.Sem
open Idealize.ShloMosaic.ValueIdx
open Cert.LstmCell Cert.LstmCell.Host Cert.LstmCell.Body

variable (m : (ℓ : Loc nD τ sig) → Buf (Elt Ideal) ℓ) (ρ : Dev nD → PrngReg)

/-! ## The index maps, decided over the 32 points -/

theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 3) = 0 ∧ win0_3.index t (1 : Fin 3) = 0 ∧ win0_3.index t (2 : Fin 3) = 0
    ∧ win0_4.index t (0 : Fin 3) = 0 ∧ win0_4.index t (1 : Fin 3) = 0 ∧ win0_4.index t (2 : Fin 3) = 0
    ∧ win0_5.index t (0 : Fin 3) = 0 ∧ win0_5.index t (1 : Fin 3) = 0 ∧ win0_5.index t (2 : Fin 3) = 0
    ∧ win0_6.index t (0 : Fin 2) = t.val ∧ win0_6.index t (1 : Fin 2) = 0
    ∧ win0_7.index t (0 : Fin 2) = t.val ∧ win0_7.index t (1 : Fin 2) = 0 :=
  (by decide +kernel : ∀ t : Fin grid0.N, _)

theorem point_lt (t : Fin cfg0.N) : t.val < 32 := by
  have h : t.val < cfg0.N := t.isLt
  have e : cfg0.N = 32 := N_0
  omega

/-- The array row of row `p` of point `t`'s band. -/
def rowOf (t : Fin cfg0.N) (p : Fin 256) : Fin 8192 := ⟨t.val * 256 + p.val, by have := point_lt t; have := p.isLt; omega⟩

/-! ## The six input blocks at a point, each at its literal type -/

abbrev xblk (c : Dev nD) (t : Fin cfg0.N) : Vec Ideal S256x1024 .bf16 := iblk m c 0 t
abbrev hblk (c : Dev nD) (t : Fin cfg0.N) : Vec Ideal S256x1024 .bf16 := iblk m c 1 t
abbrev cblk (c : Dev nD) (t : Fin cfg0.N) : Vec Ideal S256x1024 .f32 := iblk m c 2 t
abbrev wxblk (c : Dev nD) (t : Fin cfg0.N) : Vec Ideal S4x1024x1024 .bf16 := iblk m c 3 t
abbrev whblk (c : Dev nD) (t : Fin cfg0.N) : Vec Ideal S4x1024x1024 .bf16 := iblk m c 4 t
abbrev bblk (c : Dev nD) (t : Fin cfg0.N) : Vec Ideal S4x1x1024 .f32 := iblk m c 5 t

/-- The x block at `(p, k)` is x at row `256·t + p`. -/
theorem xblk_apply (c : Dev nD) (t : Fin cfg0.N) (p : Fin 256) (k : Fin 1024) :
    xblk m c t (ix2 p k) = argX m c (ix2 (rowOf t p) k) := by
  show (V m c main_v6 : S8192x1024.Idx → EReal) (((cfg0.win 0).blk t).view.emb (ix2 p k)) = _
  rw [staged_x]
  refine congrArg (argX m c) (funext fun a => Fin.ext ?_)
  obtain ⟨e0, e1, -⟩ := idx_facts t
  match a with
  | ⟨0, _⟩ => show win0_0.index t (0 : Fin 2) * 256 + 1 * p.val = t.val * 256 + p.val; rw [e0]; omega
  | ⟨1, _⟩ => show win0_0.index t (1 : Fin 2) * 1024 + 1 * k.val = k.val; rw [e1]; omega

/-- The h block at `(p, k)` is h at row `256·t + p`. -/
theorem hblk_apply (c : Dev nD) (t : Fin cfg0.N) (p : Fin 256) (k : Fin 1024) :
    hblk m c t (ix2 p k) = argH m c (ix2 (rowOf t p) k) := by
  show (V m c main_v7 : S8192x1024.Idx → EReal) (((cfg0.win 1).blk t).view.emb (ix2 p k)) = _
  rw [staged_h]
  refine congrArg (argH m c) (funext fun a => Fin.ext ?_)
  obtain ⟨-, -, e0, e1, -⟩ := idx_facts t
  match a with
  | ⟨0, _⟩ => show win0_1.index t (0 : Fin 2) * 256 + 1 * p.val = t.val * 256 + p.val; rw [e0]; omega
  | ⟨1, _⟩ => show win0_1.index t (1 : Fin 2) * 1024 + 1 * k.val = k.val; rw [e1]; omega

/-- The c block at `(p, q)` is c at row `256·t + p`. -/
theorem cblk_apply (c : Dev nD) (t : Fin cfg0.N) (p : Fin 256) (q : Fin 1024) :
    cblk m c t (ix2 p q) = argC m c (ix2 (rowOf t p) q) := by
  show (V m c main_arg2 : S8192x1024.Idx → EReal) (((cfg0.win 2).blk t).view.emb (ix2 p q)) = _
  rw [V_main_arg2]
  refine congrArg (argC m c) (funext fun a => Fin.ext ?_)
  obtain ⟨-, -, -, -, e0, e1, -⟩ := idx_facts t
  match a with
  | ⟨0, _⟩ => show win0_2.index t (0 : Fin 2) * 256 + 1 * p.val = t.val * 256 + p.val; rw [e0]; omega
  | ⟨1, _⟩ => show win0_2.index t (1 : Fin 2) * 1024 + 1 * q.val = q.val; rw [e1]; omega

/-- The staged input weights, whole at every point: `(g, k, q)` reads `Wx[g, q, k]`. -/
theorem wxblk_apply (c : Dev nD) (t : Fin cfg0.N) (g : Fin 4) (k q : Fin 1024) :
    wxblk m c t (ix3 g k q) = argWx m c (ix3 g q k) := by
  show (V m c main_v1 : S4x1024x1024.Idx → EReal) (((cfg0.win 3).blk t).view.emb (ix3 g k q)) = _
  obtain ⟨-, -, -, -, -, -, e0, e1, e2, -⟩ := idx_facts t
  have e : ((cfg0.win 3).blk t).view.emb (ix3 g k q) = ix3 g k q := funext fun a => Fin.ext (by
    match a with
    | ⟨0, _⟩ => show win0_3.index t (0 : Fin 3) * 4 + 1 * g.val = g.val; rw [e0]; omega
    | ⟨1, _⟩ => show win0_3.index t (1 : Fin 3) * 1024 + 1 * k.val = k.val; rw [e1]; omega
    | ⟨2, _⟩ => show win0_3.index t (2 : Fin 3) * 1024 + 1 * q.val = q.val; rw [e2]; omega)
  rw [e]
  exact staged_wx_apply m c g k q

/-- The staged recurrent weights, whole at every point: `(g, k, q)` reads `Wh[g, q, k]`. -/
theorem whblk_apply (c : Dev nD) (t : Fin cfg0.N) (g : Fin 4) (k q : Fin 1024) :
    whblk m c t (ix3 g k q) = argWh m c (ix3 g q k) := by
  show (V m c main_v3 : S4x1024x1024.Idx → EReal) (((cfg0.win 4).blk t).view.emb (ix3 g k q)) = _
  obtain ⟨-, -, -, -, -, -, -, -, -, e0, e1, e2, -⟩ := idx_facts t
  have e : ((cfg0.win 4).blk t).view.emb (ix3 g k q) = ix3 g k q := funext fun a => Fin.ext (by
    match a with
    | ⟨0, _⟩ => show win0_4.index t (0 : Fin 3) * 4 + 1 * g.val = g.val; rw [e0]; omega
    | ⟨1, _⟩ => show win0_4.index t (1 : Fin 3) * 1024 + 1 * k.val = k.val; rw [e1]; omega
    | ⟨2, _⟩ => show win0_4.index t (2 : Fin 3) * 1024 + 1 * q.val = q.val; rw [e2]; omega)
  rw [e]
  exact staged_wh_apply m c g k q

/-- The staged bias, whole at every point: `(g, 0, q)` reads `bx[g, q] + bh[g, q]`. -/
theorem bblk_apply (c : Dev nD) (t : Fin cfg0.N) (g : Fin 4) (u : Fin 1) (q : Fin 1024) :
    bblk m c t (ix3 g u q) = argBx m c (ix2 g q) + argBh m c (ix2 g q) := by
  show (V m c main_v5 : S4x1x1024.Idx → EReal) (((cfg0.win 5).blk t).view.emb (ix3 g u q)) = _
  obtain ⟨-, -, -, -, -, -, -, -, -, -, -, -, e0, e1, e2, -⟩ := idx_facts t
  have e : ((cfg0.win 5).blk t).view.emb (ix3 g u q) = ix3 g u q := funext fun a => Fin.ext (by
    match a with
    | ⟨0, _⟩ => show win0_5.index t (0 : Fin 3) * 4 + 1 * g.val = g.val; rw [e0]; omega
    | ⟨1, _⟩ => show win0_5.index t (1 : Fin 3) * 1 + 1 * u.val = u.val; rw [e1]; omega
    | ⟨2, _⟩ => show win0_5.index t (2 : Fin 3) * 1024 + 1 * q.val = q.val; rw [e2]; omega)
  rw [e]
  exact staged_bias_apply m c g u q

/-! ## A block's values are the arrays' -/

/-- Gate `g` on point `t`'s blocks at `(p, q)` is gate `g` of the arguments at row `256·t + p`. -/
theorem pre_block (c : Dev nD) (t : Fin cfg0.N) (g : Fin 4) (p : Fin 256) (q : Fin 1024) :
    blkPre (xblk m c t) (hblk m c t) (wxblk m c t) (whblk m c t) (bblk m c t) g p q
      = pre (argX m c) (argH m c) (argWx m c) (argWh m c) (argBx m c) (argBh m c) g (rowOf t p) q := by
  unfold blkPre pre dotRow
  simp only [xblk_apply, hblk_apply, wxblk_apply, whblk_apply, bblk_apply]

/-- The cell block of point `t`, at an entry `y` lying under array index `i`. -/
theorem cell_at (c : Dev nD) (t : Fin cfg0.N) (y : S256x1024.Idx) (i : S8192x1024.Idx)
    (h0 : (i 0).val = t.val * 256 + (y 0).val) (h1 : (i 1).val = (y 1).val) :
    out0_7 (F := Ideal) (xblk m c t) (hblk m c t) (cblk m c t) (wxblk m c t) (whblk m c t) (bblk m c t) y = cellNext (argX m c) (argH m c) (argC m c) (argWx m c) (argWh m c) (argBx m c) (argBh m c) i := by
  obtain ⟨p, q, rfl⟩ : ∃ (p : Fin 256) (q : Fin 1024), y = ix2 p q := ⟨y 0, y 1, eq_ix2 y⟩
  obtain rfl : i = ix2 (rowOf t p) q := funext fun a => Fin.ext (by
    match a with
    | ⟨0, _⟩ => exact h0
    | ⟨1, _⟩ => exact h1)
  rw [cell_block]
  unfold blkCell cellNext cellAt
  rw [pre_block, pre_block, pre_block, cblk_apply]

/-- The hidden block of point `t`, at an entry `y` lying under array index `i`. -/
theorem hidden_at (c : Dev nD) (t : Fin cfg0.N) (y : S256x1024.Idx) (i : S8192x1024.Idx)
    (h0 : (i 0).val = t.val * 256 + (y 0).val) (h1 : (i 1).val = (y 1).val) :
    out0_6 (F := Ideal) (xblk m c t) (hblk m c t) (cblk m c t) (wxblk m c t) (whblk m c t) (bblk m c t) y = hiddenNext (argX m c) (argH m c) (argC m c) (argWx m c) (argWh m c) (argBx m c) (argBh m c) i := by
  obtain ⟨p, q, rfl⟩ : ∃ (p : Fin 256) (q : Fin 1024), y = ix2 p q := ⟨y 0, y 1, eq_ix2 y⟩
  obtain rfl : i = ix2 (rowOf t p) q := funext fun a => Fin.ext (by
    match a with
    | ⟨0, _⟩ => exact h0
    | ⟨1, _⟩ => exact h1)
  rw [hidden_block]
  unfold blkHidden blkCell hiddenNext hiddenAt cellAt
  rw [pre_block, pre_block, pre_block, pre_block, cblk_apply]

/-! ## What each point writes back -/

/-- Point `t` writes band `t` of the new cell state. -/
theorem flushed_cell (c : Dev nD) (t : Fin cfg0.N) :
    (dats m 0 c).flushed 7 t = ((cfg0.win 7).blk t).view.read (Elt Ideal) (cellNext (argX m c) (argH m c) (argC m c) (argWx m c) (argWh m c) (argBx m c) (argBh m c)) := by
  rw [Cert.KernelIdeal.Value.flushed7]
  obtain ⟨-, -, -, -, -, -, -, -, -, -, -, -, -, -, -, -, -, e0, e1⟩ := idx_facts t
  funext j
  refine cell_at m c t j _ ?_ ?_
  · show win0_7.index t (0 : Fin 2) * 256 + 1 * (j 0).val = t.val * 256 + (j 0).val; rw [e0]; omega
  · show win0_7.index t (1 : Fin 2) * 1024 + 1 * (j 1).val = (j 1).val; rw [e1]; omega

/-- Point `t` writes band `t` of the new hidden state. -/
theorem flushed_hidden (c : Dev nD) (t : Fin cfg0.N) :
    (dats m 0 c).flushed 6 t = ((cfg0.win 6).blk t).view.read (Elt Ideal) (hiddenNext (argX m c) (argH m c) (argC m c) (argWx m c) (argWh m c) (argBx m c) (argBh m c)) := by
  rw [Cert.KernelIdeal.Value.flushed6]
  obtain ⟨-, -, -, -, -, -, -, -, -, -, -, -, -, -, -, e0, e1, -⟩ := idx_facts t
  funext j
  refine hidden_at m c t j _ ?_ ?_
  · show win0_6.index t (0 : Fin 2) * 256 + 1 * (j 0).val = t.val * 256 + (j 0).val; rw [e0]; omega
  · show win0_6.index t (1 : Fin 2) * 1024 + 1 * (j 1).val = (j 1).val; rw [e1]; omega

/-! ## The bands cover the rows -/

theorem mem_band7 (t : Fin cfg0.N) (i : S8192x1024.Idx) :
    i ∈ ((cfg0.win 7).blk t).view.set ↔ ∀ a : Fin 2, win0_7.index t a * S256x1024.size a ≤ (i a).val ∧ (i a).val < win0_7.index t a * S256x1024.size a + S256x1024.size a := by
  show i ∈ ((View.whole main_v8_1).slice (win0_7.rect t)).set ↔ _
  rw [View.set_slice_whole, Rect.mem_set_unit]
  exact Iff.rfl

theorem mem_band6 (t : Fin cfg0.N) (i : S8192x1024.Idx) :
    i ∈ ((cfg0.win 6).blk t).view.set ↔ ∀ a : Fin 2, win0_6.index t a * S256x1024.size a ≤ (i a).val ∧ (i a).val < win0_6.index t a * S256x1024.size a + S256x1024.size a := by
  show i ∈ ((View.whole main_v8_0).slice (win0_6.rect t)).set ↔ _
  rw [View.set_slice_whole, Rect.mem_set_unit]
  exact Iff.rfl

/-- Row `r` lies in band `r / 256`. -/
theorem band_of (i : S8192x1024.Idx) : ∃ t : Fin cfg0.N, t.val = (i 0).val / 256 :=
  ⟨⟨(i 0).val / 256, by have e : cfg0.N = 32 := N_0; have : (i 0).val < 8192 := (i 0).isLt; omega⟩, rfl⟩

theorem cover7 (i : S8192x1024.Idx) : ∃ t : Fin cfg0.N, (cfg0.win 7).flush t = true ∧ i ∈ ((cfg0.win 7).blk t).view.set := by
  obtain ⟨t, ht⟩ := band_of i
  obtain ⟨-, -, -, -, -, -, -, -, -, -, -, -, -, -, -, -, -, e0, e1⟩ := idx_facts t
  have hi1 : (i 1).val < 1024 := (i 1).isLt
  refine ⟨t, flush0_7 t, ?_⟩
  rw [mem_band7]
  intro a
  match a with
  | ⟨0, _⟩ => show win0_7.index t (0 : Fin 2) * 256 ≤ (i 0).val ∧ (i 0).val < win0_7.index t (0 : Fin 2) * 256 + 256; rw [e0, ht]; omega
  | ⟨1, _⟩ => show win0_7.index t (1 : Fin 2) * 1024 ≤ (i 1).val ∧ (i 1).val < win0_7.index t (1 : Fin 2) * 1024 + 1024; rw [e1]; omega

theorem cover6 (i : S8192x1024.Idx) : ∃ t : Fin cfg0.N, (cfg0.win 6).flush t = true ∧ i ∈ ((cfg0.win 6).blk t).view.set := by
  obtain ⟨t, ht⟩ := band_of i
  obtain ⟨-, -, -, -, -, -, -, -, -, -, -, -, -, -, -, e0, e1, -⟩ := idx_facts t
  have hi1 : (i 1).val < 1024 := (i 1).isLt
  refine ⟨t, flush0_6 t, ?_⟩
  rw [mem_band6]
  intro a
  match a with
  | ⟨0, _⟩ => show win0_6.index t (0 : Fin 2) * 256 ≤ (i 0).val ∧ (i 0).val < win0_6.index t (0 : Fin 2) * 256 + 256; rw [e0, ht]; omega
  | ⟨1, _⟩ => show win0_6.index t (1 : Fin 2) * 1024 ≤ (i 1).val ∧ (i 1).val < win0_6.index t (1 : Fin 2) * 1024 + 1024; rw [e1]; omega

/-! ## The arrays after the run, and the run -/

theorem final_cell (c : Dev nD) : (dats m 0 c).arrAt 7 cfg0.N = cellNext (argX m c) (argH m c) (argC m c) (argWx m c) (argWh m c) (argBx m c) (argBh m c) :=
  (dats m 0 c).arrAt_eq_of_cover 7 (cellNext (argX m c) (argH m c) (argC m c) (argWx m c) (argWh m c) (argBx m c) (argBh m c)) (fun t _ => flushed_cell m c t) cover7

theorem final_hidden (c : Dev nD) : (dats m 0 c).arrAt 6 cfg0.N = hiddenNext (argX m c) (argH m c) (argC m c) (argWx m c) (argWh m c) (argBx m c) (argBh m c) :=
  (dats m 0 c).arrAt_eq_of_cover 6 (hiddenNext (argX m c) (argH m c) (argC m c) (argWx m c) (argWh m c) (argBx m c) (argBh m c)) (fun t _ => flushed_hidden m c t) cover6

/-- Every fair execution of the kernel program ends with the first result at the new hidden state and the second at the
    new cell state of the arguments, the arguments unchanged. -/
theorem run : θ_run defs (onTc (τ := τ) (main (F := Ideal))) ⟨m, fun _ => 0, ρ⟩ fun r => ∀ c : Dev nD,
      r.2.mem ((c : Thread nD τ).loc main_v8_0) = hiddenNext (argX m c) (argH m c) (argC m c) (argWx m c) (argWh m c) (argBx m c) (argBh m c)
      ∧ r.2.mem ((c : Thread nD τ).loc main_v8_1) = cellNext (argX m c) (argH m c) (argC m c) (argWx m c) (argWh m c) (argBx m c) (argBh m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨(h c).1.trans (final_hidden m c), (h c).2.1.trans (final_cell m c), (h c).2.2⟩)
    (Cert.KernelIdeal.Value.run_blocks m ρ)

end Cert.LstmCell.Blocks

end
-- ==== Proof.lean ====
/-
  An LSTM cell computed by one tiled kernel against its plain array definition, over the extended reals.

  Both programs compute, for batch row `b`, hidden unit `o` and gate `g`,

      a g = Σ_k x[b,k] · Wx[g,o,k] + Σ_k h[b,k] · Wh[g,o,k] + bias,
      c' = σ(a 1) · c + σ(a 0) · tanh (a 2),     h' = σ(a 3) · tanh c',      σ y = 1 / (1 + e^(-y)).

  The kernel sums the two bias stacks first, transposes the weights beforehand, narrows x, h and the weights to a shorter
  format (the identity on extended reals), and works on 32 bands of 256 rows, each gate a pair of products into a zero
  accumulator; the reference forms all gates at once by two contractions, adds the biases one after the other, slices the
  gates out and spells σ as a quotient.  The two agree because a product into zero is the plain sum over the shared axis,
  addition of extended reals is associative (also at infinities, so finiteness of the inputs is never used), and
  `1 / (1 + e^(-y))` is the logistic function.

  `Spec.lean` states the cell; `RefIsSpec.lean` shows the reference computes it; `HostPrefix.lean`, `Payload.lean` and
  `Blocks.lean` show the kernel does: what the region finds, what one band's body leaves, and that the bands tile the rows.
  No operation is rewritten between the kernel's word-level text and its reading over the extended reals, so `preserves`
  has no conjunct.
-/
import proofs.«123325_j3169685865216_1_alg».proof.Defs
import proofs.«123325_j3169685865216_1_alg».proof.Proof.Gen.Kernel
import proofs.«123325_j3169685865216_1_alg».proof.Proof.Gen.Kernel.Skeleton
import proofs.«123325_j3169685865216_1_alg».proof.Proof.Gen.Kernel.Launch
import proofs.«123325_j3169685865216_1_alg».proof.Proof.Gen.Kernel.Points
import proofs.«123325_j3169685865216_1_alg».proof.Proof.Gen.Kernel.Frame
import proofs.«123325_j3169685865216_1_alg».proof.Proof.Gen.KernelIdeal
import proofs.«123325_j3169685865216_1_alg».proof.Proof.Gen.KernelIdeal.Skeleton
import proofs.«123325_j3169685865216_1_alg».proof.Proof.Gen.KernelIdeal.Launch
import proofs.«123325_j3169685865216_1_alg».proof.Proof.Gen.KernelIdeal.Points
import proofs.«123325_j3169685865216_1_alg».proof.Proof.Gen.KernelIdeal.Frame
import proofs.«123325_j3169685865216_1_alg».proof.Proof.Gen.ReferenceIdeal
import proofs.«123325_j3169685865216_1_alg».proof.Proof.Gen.KernelIdeal.Value
import proofs.«123325_j3169685865216_1_alg».proof.Proof.Gen.ReferenceIdeal.Run
import proofs.«123325_j3169685865216_1_alg».proof.Proof.Gen.ReferenceIdeal.Read
import proofs.«123325_j3169685865216_1_alg».proof.Proof.Gen.Pre_finite_inputs
import proofs.«123325_j3169685865216_1_alg».proof.Proof.Spec
import proofs.«123325_j3169685865216_1_alg».proof.Proof.RefIsSpec
import proofs.«123325_j3169685865216_1_alg».proof.Proof.HostPrefix
import proofs.«123325_j3169685865216_1_alg».proof.Proof.Payload
import proofs.«123325_j3169685865216_1_alg».proof.Proof.Blocks
import Idealize.ShloMosaic.Adequacy
import Idealize.ShloMosaic.Init

noncomputable section

namespace Cert.Proof

open Idealize.ShloMosaic Idealize.SL.Sem Cert.Kernel

/-- The word-level kernel terminates without a fault and leaves its arguments alone. -/
theorem frame_kernel : Cert.frame_Kernel := fun m ρ _ => Cert.Kernel.Gen.frame m ρ

/-- So does the kernel read over the extended reals. -/
theorem frame_kernel_ideal : Cert.frame_KernelIdeal := fun m ρ _ => Cert.KernelIdeal.Gen.frame m ρ

/-- The reference is a list of array operations: it runs to its end, its arguments untouched. -/
theorem frame_reference : Cert.frame_ReferenceIdeal := fun m ρ _ =>
  (θ_run Cert.ReferenceIdeal.defs _ _).mono (fun _ h c => (h c).2.2) (Cert.ReferenceIdeal.Value.run (F := Ideal) m ρ)

/-- No operation was rewritten on the way to the extended reals. -/
theorem preserves : Cert.preserves_Kernel_KernelIdeal := trivial

/-- From memories that agree on the seven arguments, the kernel ends with the new hidden and cell states of its arguments
    and the reference with those of its own: the same two arrays. -/
theorem algebraic : Cert.algebraic_KernelIdeal_ReferenceIdeal := by
  intro m ρ m' ρ' _ hagree
  refine ⟨_, _, Cert.LstmCell.Blocks.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · obtain ⟨a0, a1, a2, a3, a4, a5, a6⟩ := hagree c
    rw [Cert.ReferenceIdeal.Read.val_main_v40_eq, Cert.LstmCell.Ref.hidden_eq, a0, a1, a2, a3, a4, a5, a6]
  · obtain ⟨a0, a1, a2, a3, a4, a5, a6⟩ := hagree c
    rw [Cert.ReferenceIdeal.Read.val_main_v38_eq, Cert.LstmCell.Ref.cell_eq, a0, a1, a2, a3, a4, a5, a6]

theorem claim : Cert.Claim := ⟨Cert.Kernel.Gen.facts, Cert.KernelIdeal.Gen.facts, Cert.ReferenceIdeal.Gen.facts, Cert.Pre_finite_inputs.Gen.facts,
  frame_kernel, frame_kernel_ideal, frame_reference, preserves, algebraic⟩

end Cert.Proof

end
